-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x128 .f32) (main_arg1 : FVec F S3x128x128 .f32) (main_arg2 : FVec F S3x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 83
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128, .f32⟩
  | .hbm, ⟨3, _⟩ => ⟨S1600000, .i32⟩
  | .hbm, ⟨4, _⟩ => ⟨S1600000, .i32⟩
  | .hbm, ⟨5, _⟩ => ⟨S100000, .i32⟩
  | .hbm, ⟨6, _⟩ => ⟨S1700000, .i32⟩
  | .hbm, ⟨7, _⟩ => ⟨S1700000, .i32⟩
  | .hbm, ⟨8, _⟩ => ⟨S_, .f32⟩
  | .hbm, ⟨9, _⟩ => ⟨S1700000, .f32⟩
  | .hbm, ⟨10, _⟩ => ⟨S_, .f32⟩
  | .hbm, ⟨11, _⟩ => ⟨S100000, .f32⟩
  | .hbm, ⟨12, _⟩ => ⟨S1700000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000x128, .f32⟩
  | .hbm, ⟨32, _⟩ => ⟨S_, .f32⟩
  | .hbm, ⟨33, _⟩ => ⟨S100000x128, .f32⟩
  | .hbm, ⟨34, _⟩ => ⟨S1700000x1, .i32⟩
  | .hbm, ⟨35, _⟩ => ⟨S100000x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S128x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v46_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62_0) S4000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62_1) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128, .f32⟩
  | .hbm, ⟨3, _⟩ => ⟨S1600000, .i32⟩
  | .hbm, ⟨4, _⟩ => ⟨S1600000, .i32⟩
  | .hbm, ⟨5, _⟩ => ⟨S100000, .i32⟩
  | .hbm, ⟨6, _⟩ => ⟨S1700000, .i32⟩
  | .hbm, ⟨7, _⟩ => ⟨S1700000, .i32⟩
  | .hbm, ⟨8, _⟩ => ⟨S_, .f32⟩
  | .hbm, ⟨9, _⟩ => ⟨S1700000, .f32⟩
  | .hbm, ⟨10, _⟩ => ⟨S_, .f32⟩
  | .hbm, ⟨11, _⟩ => ⟨S100000, .f32⟩
  | .hbm, ⟨12, _⟩ => ⟨S1700000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000x128, .f32⟩
  | .hbm, ⟨33, _⟩ => ⟨S_, .f32⟩
  | .hbm, ⟨34, _⟩ => ⟨S100000x128, .f32⟩
  | .hbm, ⟨35, _⟩ => ⟨S1700000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S100000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128x128, .f32⟩
  | .hbm, ⟨96, _⟩ => ⟨S128x128, .f32⟩
  | .hbm, ⟨97, _⟩ => ⟨S100000x128, .f32⟩
  | .hbm, ⟨98, _⟩ => ⟨S1x128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_cst : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_7 : Ref sig .tc := ⟨.hbm, 80, rfl⟩
abbrev main_v62 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The three-layer graph convolution as functions of whole arrays, at the extended reals.

  The node features are a [100000, 128] matrix, the two degree normalisations are columns [100000, 1], a layer's
  weights are [128, 128] and its bias is a row [1, 128]. Three functions say what the dense part of a layer does,
  entry by entry:
  • `scaleRows x n` multiplies row p of x by the column's entry p;
  • `affine m nd W b` scales row p of the aggregated messages m by nd's entry p, multiplies the result by W (entry
    (p, q) is the sum over k of the scaled (p, k) times W (k, q)) and adds the bias entry q;
  • `relu h` takes the maximum of every entry with zero.
  `gcn` composes them into the three layers around the edge aggregation, which is kept as a parameter.
  Nothing here needs the entries to be finite: both programs apply these same operations in the same order, so the
  only identities used later are the definitions of a matrix product and of a broadcast read at an index.
-/
import Idealize.ShloMosaic.Lib.ValueIdx
import Idealize.ShloMosaic.PureOps.Ideal.Laws

noncomputable section

namespace Gcn

open Idealize.ShloMosaic Idealize.ShloMosaic.ValueIdx

/-- The node features: one row of 128 numbers per node. -/
abbrev Feat : Shape := ⟨2, ![100000, 128]⟩
/-- One number per node, kept as a column. -/
abbrev Col : Shape := ⟨2, ![100000, 1]⟩
/-- A layer's weights. -/
abbrev Wt : Shape := ⟨2, ![128, 128]⟩
/-- A layer's bias, kept as a row. -/
abbrev BiasRow : Shape := ⟨2, ![1, 128]⟩

/-- Row `p` of `x` times entry `p` of the column `n`. -/
def scaleRows (x : FVec Ideal Feat .f32) (n : FVec Ideal Col .f32) : FVec Ideal Feat .f32 :=
  fun i => x i * n (ix2 (i 0) (0 : Fin 1))

/-- Entry `(p, q)` of `((m scaled row-wise by nd) · W) + b`. -/
def affine (m : FVec Ideal Feat .f32) (nd : FVec Ideal Col .f32) (W : FVec Ideal Wt .f32)
    (b : FVec Ideal BiasRow .f32) : FVec Ideal Feat .f32 :=
  fun i => (∑ k : Fin 128, (m (ix2 (i 0) k) * nd (ix2 (i 0) (0 : Fin 1))) * W (ix2 k (i 1)))
    + b (ix2 (0 : Fin 1) (i 1))

/-- Every entry's maximum with zero (the zero kept as the f32 word both programs print). -/
def relu (h : FVec Ideal Feat .f32) : FVec Ideal Feat .f32 :=
  fun i => max (h i) (Ideal.ofBits .f32 0x00000000#32)

/-- A bias vector [128] seen as the row [1, 128]. -/
def asRow (b : FVec Ideal ⟨1, ![128]⟩ .f32) : FVec Ideal BiasRow .f32 :=
  fun j => b (ix1 (j 1))

/-- The three layers around an aggregation step `agg` (the gather along the edges' sources and the sum into their
    destinations, the same function in every layer): the features scaled by `ns` are aggregated and go through a
    layer, twice with the clip at zero and the rescaling by `ns`, the third time without. -/
def gcn (agg : FVec Ideal Feat .f32 → FVec Ideal Feat .f32) (x : FVec Ideal Feat .f32)
    (ns nd : FVec Ideal Col .f32) (W0 : FVec Ideal Wt .f32) (b0 : FVec Ideal BiasRow .f32)
    (W1 : FVec Ideal Wt .f32) (b1 : FVec Ideal BiasRow .f32) (W2 : FVec Ideal Wt .f32) (b2 : FVec Ideal BiasRow .f32) :
    FVec Ideal Feat .f32 :=
  affine (agg (scaleRows (relu (affine (agg (scaleRows (relu (affine (agg (scaleRows x ns)) nd W0 b0)) ns)) nd W1 b1)) ns))
    nd W2 b2

theorem asRow_apply (b : FVec Ideal ⟨1, ![128]⟩ .f32) (u : Fin 1) (q : Fin 128) : asRow b (ix2 u q) = b (ix1 q) := rfl

theorem scaleRows_apply (x : FVec Ideal Feat .f32) (n : FVec Ideal Col .f32) (p : Fin 100000) (q : Fin 128) :
    scaleRows x n (ix2 p q) = x (ix2 p q) * n (ix2 p (0 : Fin 1)) := rfl

theorem affine_apply (m : FVec Ideal Feat .f32) (nd : FVec Ideal Col .f32) (W : FVec Ideal Wt .f32)
    (b : FVec Ideal BiasRow .f32) (p : Fin 100000) (q : Fin 128) :
    affine m nd W b (ix2 p q)
      = (∑ k : Fin 128, (m (ix2 p k) * nd (ix2 p (0 : Fin 1))) * W (ix2 k q)) + b (ix2 (0 : Fin 1) q) := rfl

theorem relu_apply (h : FVec Ideal Feat .f32) (i : Feat.Idx) :
    relu h i = max (h i) (Ideal.ofBits .f32 0x00000000#32) := rfl

end Gcn

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.KScale.lean ====
/-
  The first kernel region: the node features scaled row-wise by the source-degree normalisation.

  The region walks the 100000 rows in 25 blocks of 4000. At block t it loads rows 4000·t … 4000·t + 3999 of the
  features and the same rows of the normalisation column, multiplies each row by its column entry, and writes the
  block back to the same rows of the output. The blocks tile the rows, so the output array ends as `scaleRows` of
  the two arrays as the region found them.
-/
import proofs.«161367_j1872605741624_1_alg».proof.Proof.Gen.KernelIdeal.Frame
import proofs.«161367_j1872605741624_1_alg».proof.Proof.Spec
import proofs.«161367_j1872605741624_1_alg».proof.Proof.LibRowOps
import Idealize.ShloMosaic.Lib.Pipeline.Value
import Idealize.ShloMosaic.Lib.ValueIdx

noncomputable section

namespace Cert.KernelIdeal.Scale

open Idealize.ShloMosaic Idealize.ShloMosaic.TcCoe Idealize.SL.Sem Idealize.ShloMosaic.ValueIdx
open Idealize.ShloMosaic.Pipeline (Dat Cfg Window)
open Cert.KernelIdeal Cert.KernelIdeal.Gen Gcn

variable (V : (c : Dev nD) → (b : Ref sig .tc) → Buf (Elt Ideal) ((c : Thread nD τ).loc b))

/-- The features as the region finds them. -/
abbrev feats (c : Dev nD) : FVec Ideal Feat .f32 := V c main_arg0
/-- The source-degree normalisation column as the region finds it. -/
abbrev srcNorm (c : Dev nD) : FVec Ideal Col .f32 := V c main_v11

theorem origin2 : (![0, 0] : Fin 2 → Nat) = fun _ => 0 := funext fun a => by fin_cases a <;> rfl

/-- Entry (p, q) of the block the body stores: the feature entry times the column's entry p. -/
theorem scaled_block_apply (x0 : Vec Ideal S4000x128 .f32) (x1 : Vec Ideal S4000x1 .f32) (p : Fin 4000) (q : Fin 128) :
    k0_pay1 x0 x1 (ix2 p q) = x0 (ix2 p q) * x1 (ix2 p (0 : Fin 1)) := by
  unfold k0_pay1
  rw [mulf_apply, shapeCast_self]
  exact congrArg (x0 (ix2 p q) * ·) (RowOps.broadcastTo_a1_ab_apply x1 broadcasts_S4000x1_S4000x128 p q)

/-- Every window's block at point t starts at row 4000·t (the block index on the row axis is t itself, on the
    other axis 0). -/
theorem row_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of `scaleRows` of the arrays as the region finds them. -/
theorem written_back (c : Dev nD) (t : Fin cfg0.N) :
    (dat0 V c).flushed 2 t
      = ((cfg0.win 2).blk t).view.read (Elt Ideal) (scaleRows (feats V c) (srcNorm V c)) := by
  show (cfg0.win 2).cut (grid0.coords t) ((dat0 V c).after 2 t) = _
  rw [after0_2]
  unfold out0_2
  rw [View.canon_unit_zero origin2]
  simp only [View.ld_unit_zero (S := S4000x128) origin2, View.ld_unit_zero (S := S4000x1) origin2]
  obtain ⟨e0, e1, e2, e3, e4, e5⟩ := row_block_index t
  funext j
  obtain ⟨p, q, rfl⟩ : ∃ (p : Fin 4000) (q : Fin 128), j = ix2 p q := ⟨j 0, j 1, eq_ix2 j⟩
  refine (scaled_block_apply _ _ p q).trans ?_
  show feats V c (((cfg0.win 0).blk t).view.emb (ix2 p q)) * srcNorm V c (((cfg0.win 1).blk t).view.emb (ix2 p (0 : Fin 1)))
    = feats V c (((cfg0.win 2).blk t).view.emb (ix2 p q))
      * srcNorm V c (ix2 ((((cfg0.win 2).blk t).view.emb (ix2 p q)) 0) (0 : Fin 1))
  have h0 : ((cfg0.win 0).blk t).view.emb (ix2 p q) = ((cfg0.win 2).blk t).view.emb (ix2 p q) := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 ((((cfg0.win 2).blk t).view.emb (ix2 p q)) 0) (0 : Fin 1) := by
    funext a; apply Fin.ext
    match a with
    | ⟨0, _⟩ => show win0_1.index t (0 : Fin 2) * 4000 + 1 * p.val = win0_2.index t (0 : Fin 2) * 4000 + 1 * p.val; omega
    | ⟨1, _⟩ => show win0_1.index t (1 : Fin 2) * 1 + 1 * 0 = 0; omega
  rw [h0, h1]
  rfl

/-- An index of the output lies in point t's block iff, on each axis, its coordinate lies in the block's range. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v14).slice (win0_2.rect t)).set ↔ _
  rw [View.set_slice_whole, Rect.mem_set_unit]
  exact Iff.rfl

/-- Row r belongs to the block of point r / 4000, and every point writes its block back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 4000 < 25 := by omega
  obtain ⟨-, -, -, -, e4, e5⟩ := row_block_index ⟨(i 0).val / 4000, ht⟩
  refine ⟨⟨(i 0).val / 4000, ht⟩, flush0_2 _, ?_⟩
  rw [mem_block]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]; omega

/-- The region's output array: the features scaled row-wise, as one function of the arrays the region found. -/
theorem scaled_array (c : Dev nD) : (dat0 V c).arrAt 2 cfg0.N = scaleRows (feats V c) (srcNorm V c) :=
  (dat0 V c).arrAt_eq_of_cover 2 _ (fun t _ => written_back V c t) covered

end Cert.KernelIdeal.Scale

end
-- ==== Proof.KBlockProduct.lean ====
/-
  The matrix product inside a layer's kernel body, read at an entry.

  A block of 4000 rows of scaled messages (bf16 after the cast, which changes nothing at the extended reals) is
  multiplied by the layer's [128, 128] weights into a zero accumulator. Entry (p, q) of the product is the sum over
  the contracted coordinate k of the left operand at (p, k) times the right operand at (k, q): the dimension numbers
  contract the left operand's axis 1 with the right operand's axis 0 and keep the other two axes in order.
-/
import proofs.«161367_j1872605741624_1_alg».proof.Proof.Gen.KernelIdeal
import Idealize.ShloMosaic.Lib.ValueIdx
import Idealize.ShloMosaic.PureOps.Ideal.Laws

noncomputable section

namespace Cert.KernelIdeal.BlockProduct

open Idealize.ShloMosaic Idealize.ShloMosaic.ValueIdx Cert.KernelIdeal

theorem lhs_row (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_contracted (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_contracted (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_col (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the block product into a zero accumulator: the sum over k of left (p, k) times right (k, q). -/
theorem product_apply {φ₁ φ₂ : FTy} (l : FVec Ideal S4000x128 φ₁) (r : FVec Ideal S128x128 φ₂) (p : Fin 4000) (q : Fin 128) :
    FloatOps.matmul dot_S4000x128_S128x128_S4000x128_1_0_0_1_n_n none l r (constant S4000x128 .f32 0x00000000#32) (ix2 p q)
      = ∑ k : Fin 128, l (ix2 p k) * r (ix2 k q) := by
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_contracted _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_contracted _ _).trans hk
    | ⟨1, _⟩ => exact rhs_col _ _)
  rw [el, er]

end Cert.KernelIdeal.BlockProduct

end
-- ==== Proof.KLayer1.lean ====
/-
  The first layer's kernel region: the aggregated messages are scaled row-wise by the destination-degree
  normalisation, multiplied by the layer's weights, shifted by its bias and clipped at zero; the region also writes
  that result scaled row-wise by the source-degree normalisation, which is what the next layer aggregates.

  The region walks the 100000 rows in 25 blocks of 4000. At block t it reads rows 4000·t … 4000·t + 3999 of the
  messages and of the two normalisation columns, and the whole weight matrix and bias row (their one block), and
  writes the block back to the same rows of the two outputs. The blocks tile the rows, so each output array ends as
  one function of the arrays the region found.
-/
import proofs.«161367_j1872605741624_1_alg».proof.Proof.Gen.KernelIdeal.Frame
import proofs.«161367_j1872605741624_1_alg».proof.Proof.Spec
import proofs.«161367_j1872605741624_1_alg».proof.Proof.LibRowOps
import proofs.«161367_j1872605741624_1_alg».proof.Proof.KBlockProduct
import Idealize.ShloMosaic.Lib.Pipeline.Value
import Idealize.ShloMosaic.Lib.ValueIdx
import Idealize.ShloMosaic.Lib.ValueLayout

noncomputable section

namespace Cert.KernelIdeal.Layer1

open Idealize.ShloMosaic Idealize.ShloMosaic.TcCoe Idealize.SL.Sem Idealize.ShloMosaic.ValueIdx
open Idealize.ShloMosaic.Pipeline (Dat Cfg Window)
open Cert.KernelIdeal Cert.KernelIdeal.Gen Gcn

variable (V : (c : Dev nD) → (b : Ref sig .tc) → Buf (Elt Ideal) ((c : Thread nD τ).loc b))

/-- The aggregated messages as the region finds them. -/
abbrev msgs (c : Dev nD) : FVec Ideal Feat .f32 := V c main_v24
/-- The destination-degree normalisation column. -/
abbrev dstNorm (c : Dev nD) : FVec Ideal Col .f32 := V c main_v13
/-- The source-degree normalisation column. -/
abbrev srcNorm (c : Dev nD) : FVec Ideal Col .f32 := V c main_v11
/-- The layer's weights. -/
abbrev weights (c : Dev nD) : FVec Ideal Wt .f32 := V c main_v26
/-- The layer's bias row. -/
abbrev bias (c : Dev nD) : FVec Ideal BiasRow .f32 := V c main_v29

theorem origin2 : (![0, 0] : Fin 2 → Nat) = fun _ => 0 := funext fun a => by fin_cases a <;> rfl

/-- Entry (p, q) of the first block the body stores: row p of the messages scaled by the column's entry p, times
    column q of the weights, plus the bias entry q, clipped at zero. -/
theorem activated_block_apply (x0 : Vec Ideal S4000x128 .f32) (x1 : Vec Ideal S4000x1 .f32)
    (x3 : Vec Ideal S128x128 .f32) (x4 : Vec Ideal S1x128 .f32) (p : Fin 4000) (q : Fin 128) :
    k1_pay1 x0 x1 x3 x4 (ix2 p q)
      = max ((∑ k : Fin 128, (x0 (ix2 p k) * x1 (ix2 p (0 : Fin 1))) * x3 (ix2 k q)) + x4 (ix2 (0 : Fin 1) q))
          (Ideal.ofBits .f32 0x00000000#32) := by
  unfold k1_pay1
  rw [maximumf_apply, addf_apply]
  refine congrArg₂ max (congrArg₂ (· + ·) ?_ ?_) rfl
  · refine (BlockProduct.product_apply _ _ p q).trans (Finset.sum_congr rfl fun k _ => ?_)
    rw [truncf_apply, truncf_apply, mulf_apply, shapeCast_self, shapeCast_self, shapeCast_self]
    exact congrArg (fun z => x0 (ix2 p k) * z * x3 (ix2 k q))
      (RowOps.broadcastTo_a1_ab_apply x1 broadcasts_S4000x1_S4000x128 p k)
  · rw [shapeCast_self]; exact broadcastTo_1b_ab_apply x4 broadcasts_S1x128_S4000x128 p q

/-- Entry (p, q) of the second block the body stores: the first block's entry times the source column's entry p. -/
theorem rescaled_block_apply (x0 : Vec Ideal S4000x128 .f32) (x1 : Vec Ideal S4000x1 .f32)
    (x3 : Vec Ideal S128x128 .f32) (x4 : Vec Ideal S1x128 .f32) (x2 : Vec Ideal S4000x1 .f32) (p : Fin 4000) (q : Fin 128) :
    k1_pay2 x0 x1 x3 x4 x2 (ix2 p q) = k1_pay1 x0 x1 x3 x4 (ix2 p q) * x2 (ix2 p (0 : Fin 1)) := by
  unfold k1_pay2
  rw [mulf_apply, shapeCast_self]
  exact congrArg (k1_pay1 x0 x1 x3 x4 (ix2 p q) * ·) (RowOps.broadcastTo_a1_ab_apply x2 broadcasts_S4000x1_S4000x128 p q)

/-- On the row axis the three row-tiled inputs and both outputs have block index t at point t; the weights and
    the bias have their one block at every point. -/
theorem row_block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of block t is row 4000·t + p of the array. -/
def row (t : Fin cfg1.N) (p : Fin 4000) : Fin 100000 :=
  ⟨t.val * 4000 + p.val, by have h : t.val < 25 := t.isLt; have := p.isLt; omega⟩

theorem msgs_block (c : Dev nD) (t : Fin cfg1.N) (p : Fin 4000) (k : Fin 128) :
    iblk1 V c 0 t (ix2 p k) = msgs V c (ix2 (row t p) k) := by
  obtain ⟨e0, e1, -⟩ := row_block_index t
  show msgs V c (((cfg1.win 0).blk t).view.emb (ix2 p k)) = _
  refine congrArg (msgs V c) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem dstNorm_block (c : Dev nD) (t : Fin cfg1.N) (p : Fin 4000) :
    iblk1 V c 1 t (ix2 p (0 : Fin 1)) = dstNorm V c (ix2 (row t p) (0 : Fin 1)) := by
  obtain ⟨-, -, e2, e3, -⟩ := row_block_index t
  show dstNorm V c (((cfg1.win 1).blk t).view.emb (ix2 p (0 : Fin 1))) = _
  refine congrArg (dstNorm V c) (funext fun a => Fin.ext ?_)
  match a with
  | ⟨0, _⟩ => show win1_1.index t (0 : Fin 2) * 4000 + 1 * p.val = t.val * 4000 + p.val; omega
  | ⟨1, _⟩ => show win1_1.index t (1 : Fin 2) * 1 + 1 * 0 = 0; omega

theorem srcNorm_block (c : Dev nD) (t : Fin cfg1.N) (p : Fin 4000) :
    iblk1 V c 2 t (ix2 p (0 : Fin 1)) = srcNorm V c (ix2 (row t p) (0 : Fin 1)) := by
  obtain ⟨-, -, -, -, e4, e5, -⟩ := row_block_index t
  show srcNorm V c (((cfg1.win 2).blk t).view.emb (ix2 p (0 : Fin 1))) = _
  refine congrArg (srcNorm V c) (funext fun a => Fin.ext ?_)
  match a with
  | ⟨0, _⟩ => show win1_2.index t (0 : Fin 2) * 4000 + 1 * p.val = t.val * 4000 + p.val; omega
  | ⟨1, _⟩ => show win1_2.index t (1 : Fin 2) * 1 + 1 * 0 = 0; omega

theorem weights_block (c : Dev nD) (t : Fin cfg1.N) (k q : Fin 128) :
    iblk1 V c 3 t (ix2 k q) = weights V c (ix2 k q) := by
  obtain ⟨-, -, -, -, -, -, e6, e7, -⟩ := row_block_index t
  show weights V c (((cfg1.win 3).blk t).view.emb (ix2 k q)) = _
  refine congrArg (weights V c) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem bias_block (c : Dev nD) (t : Fin cfg1.N) (q : Fin 128) :
    iblk1 V c 4 t (ix2 (0 : Fin 1) q) = bias V c (ix2 (0 : Fin 1) q) := by
  obtain ⟨-, -, -, -, -, -, -, -, e8, e9, -⟩ := row_block_index t
  show bias V c (((cfg1.win 4).blk t).view.emb (ix2 (0 : Fin 1) q)) = _
  refine congrArg (bias V c) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem activated_index (t : Fin cfg1.N) (p : Fin 4000) (q : Fin 128) :
    ((cfg1.win 5).blk t).view.emb (ix2 p q) = ix2 (row t p) q := by
  obtain ⟨-, -, -, -, -, -, -, -, -, -, e10, e11, -⟩ := row_block_index t
  funext a; apply Fin.ext
  match a with
  | ⟨0, _⟩ => show win1_5.index t (0 : Fin 2) * 4000 + 1 * p.val = t.val * 4000 + p.val; omega
  | ⟨1, _⟩ => show win1_5.index t (1 : Fin 2) * 128 + 1 * q.val = q.val; omega

theorem rescaled_index (t : Fin cfg1.N) (p : Fin 4000) (q : Fin 128) :
    ((cfg1.win 6).blk t).view.emb (ix2 p q) = ix2 (row t p) q := by
  obtain ⟨-, -, -, -, -, -, -, -, -, -, -, -, e12, e13⟩ := row_block_index t
  funext a; apply Fin.ext
  match a with
  | ⟨0, _⟩ => show win1_6.index t (0 : Fin 2) * 4000 + 1 * p.val = t.val * 4000 + p.val; omega
  | ⟨1, _⟩ => show win1_6.index t (1 : Fin 2) * 128 + 1 * q.val = q.val; omega

/-- The layer's result before rescaling, as one function of the arrays the region finds. -/
abbrev activated (c : Dev nD) : FVec Ideal Feat .f32 :=
  relu (affine (msgs V c) (dstNorm V c) (weights V c) (bias V c))

/-- What point t writes back to the first output is block t of `activated`. -/
theorem activated_written_back (c : Dev nD) (t : Fin cfg1.N) :
    (dat1 V c).flushed 5 t = ((cfg1.win 5).blk t).view.read (Elt Ideal) (activated V c) := by
  show (cfg1.win 5).cut (grid1.coords t) ((dat1 V c).after 5 t) = _
  rw [after1_5]
  unfold out1_5
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (activated_block_apply _ _ _ _ p q).trans ?_
  show _ = activated V c (((cfg1.win 5).blk t).view.emb (ix2 p q))
  rw [activated_index]
  unfold activated
  rw [relu_apply, affine_apply]
  simp only [msgs_block, dstNorm_block, weights_block, bias_block]

/-- What point t writes back to the second output is block t of `activated` scaled row-wise by the source column. -/
theorem rescaled_written_back (c : Dev nD) (t : Fin cfg1.N) :
    (dat1 V c).flushed 6 t
      = ((cfg1.win 6).blk t).view.read (Elt Ideal) (scaleRows (activated V c) (srcNorm V c)) := by
  show (cfg1.win 6).cut (grid1.coords t) ((dat1 V c).after 6 t) = _
  rw [after1_6]
  unfold out1_6
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (rescaled_block_apply _ _ _ _ _ p q).trans ?_
  refine (congrArg (· * _) (activated_block_apply _ _ _ _ p q)).trans ?_
  show _ = scaleRows (activated V c) (srcNorm V c) (((cfg1.win 6).blk t).view.emb (ix2 p q))
  rw [rescaled_index, scaleRows_apply]
  unfold activated
  rw [relu_apply, affine_apply]
  simp only [msgs_block, dstNorm_block, srcNorm_block, weights_block, bias_block]

/-- An index lies in point t's block of an output iff, on each axis, its coordinate lies in the block's range. -/
theorem mem_activated_block (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v30_0).slice (win1_5.rect t)).set ↔ _
  rw [View.set_slice_whole, Rect.mem_set_unit]
  exact Iff.rfl

theorem mem_rescaled_block (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v30_1).slice (win1_6.rect t)).set ↔ _
  rw [View.set_slice_whole, Rect.mem_set_unit]
  exact Iff.rfl

/-- Row r belongs to the block of point r / 4000, and every point writes its blocks back. -/
theorem activated_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 4000 < 25 := by omega
  obtain ⟨-, -, -, -, -, -, -, -, -, -, e10, e11, -⟩ := row_block_index ⟨(i 0).val / 4000, ht⟩
  refine ⟨⟨(i 0).val / 4000, ht⟩, flush1_5 _, ?_⟩
  rw [mem_activated_block]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e10]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [e11]; omega

theorem rescaled_covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < 25 := by omega
  obtain ⟨-, -, -, -, -, -, -, -, -, -, -, -, e12, e13⟩ := row_block_index ⟨(i 0).val / 4000, ht⟩
  refine ⟨⟨(i 0).val / 4000, ht⟩, flush1_6 _, ?_⟩
  rw [mem_rescaled_block]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e12]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e13]; omega

/-- The region's first output array: the layer's result, as one function of the arrays the region found. -/
theorem activated_array (c : Dev nD) : (dat1 V c).arrAt 5 cfg1.N = activated V c :=
  (dat1 V c).arrAt_eq_of_cover 5 _ (fun t _ => activated_written_back V c t) activated_covered

/-- The region's second output array: that result scaled row-wise by the source-degree normalisation. -/
theorem rescaled_array (c : Dev nD) : (dat1 V c).arrAt 6 cfg1.N = scaleRows (activated V c) (srcNorm V c) :=
  (dat1 V c).arrAt_eq_of_cover 6 _ (fun t _ => rescaled_written_back V c t) rescaled_covered

end Cert.KernelIdeal.Layer1

end
-- ==== Proof.KLayer2.lean ====
/-
  The second layer's kernel region: the aggregated messages are scaled row-wise by the destination-degree
  normalisation, multiplied by the layer's weights, shifted by its bias and clipped at zero; the region also writes
  that result scaled row-wise by the source-degree normalisation, which is what the next layer aggregates.

  The region walks the 100000 rows in 25 blocks of 4000. At block t it reads rows 4000·t … 4000·t + 3999 of the
  messages and of the two normalisation columns, and the whole weight matrix and bias row (their one block), and
  writes the block back to the same rows of the two outputs. The blocks tile the rows, so each output array ends as
  one function of the arrays the region found.
-/
import proofs.«161367_j1872605741624_1_alg».proof.Proof.Gen.KernelIdeal.Frame
import proofs.«161367_j1872605741624_1_alg».proof.Proof.Spec
import proofs.«161367_j1872605741624_1_alg».proof.Proof.LibRowOps
import proofs.«161367_j1872605741624_1_alg».proof.Proof.KBlockProduct
import Idealize.ShloMosaic.Lib.Pipeline.Value
import Idealize.ShloMosaic.Lib.ValueIdx
import Idealize.ShloMosaic.Lib.ValueLayout

noncomputable section

namespace Cert.KernelIdeal.Layer2

open Idealize.ShloMosaic Idealize.ShloMosaic.TcCoe Idealize.SL.Sem Idealize.ShloMosaic.ValueIdx
open Idealize.ShloMosaic.Pipeline (Dat Cfg Window)
open Cert.KernelIdeal Cert.KernelIdeal.Gen Gcn

variable (V : (c : Dev nD) → (b : Ref sig .tc) → Buf (Elt Ideal) ((c : Thread nD τ).loc b))

/-- The aggregated messages as the region finds them. -/
abbrev msgs (c : Dev nD) : FVec Ideal Feat .f32 := V c main_v40
/-- The destination-degree normalisation column. -/
abbrev dstNorm (c : Dev nD) : FVec Ideal Col .f32 := V c main_v13
/-- The source-degree normalisation column. -/
abbrev srcNorm (c : Dev nD) : FVec Ideal Col .f32 := V c main_v11
/-- The layer's weights. -/
abbrev weights (c : Dev nD) : FVec Ideal Wt .f32 := V c main_v42
/-- The layer's bias row. -/
abbrev bias (c : Dev nD) : FVec Ideal BiasRow .f32 := V c main_v45

theorem origin2 : (![0, 0] : Fin 2 → Nat) = fun _ => 0 := funext fun a => by fin_cases a <;> rfl

/-- Entry (p, q) of the first block the body stores: row p of the messages scaled by the column's entry p, times
    column q of the weights, plus the bias entry q, clipped at zero. -/
theorem activated_block_apply (x0 : Vec Ideal S4000x128 .f32) (x1 : Vec Ideal S4000x1 .f32)
    (x3 : Vec Ideal S128x128 .f32) (x4 : Vec Ideal S1x128 .f32) (p : Fin 4000) (q : Fin 128) :
    k2_pay1 x0 x1 x3 x4 (ix2 p q)
      = max ((∑ k : Fin 128, (x0 (ix2 p k) * x1 (ix2 p (0 : Fin 1))) * x3 (ix2 k q)) + x4 (ix2 (0 : Fin 1) q))
          (Ideal.ofBits .f32 0x00000000#32) := by
  unfold k2_pay1
  rw [maximumf_apply, addf_apply]
  refine congrArg₂ max (congrArg₂ (· + ·) ?_ ?_) rfl
  · refine (BlockProduct.product_apply _ _ p q).trans (Finset.sum_congr rfl fun k _ => ?_)
    rw [truncf_apply, truncf_apply, mulf_apply, shapeCast_self, shapeCast_self, shapeCast_self]
    exact congrArg (fun z => x0 (ix2 p k) * z * x3 (ix2 k q))
      (RowOps.broadcastTo_a1_ab_apply x1 broadcasts_S4000x1_S4000x128 p k)
  · rw [shapeCast_self]; exact broadcastTo_1b_ab_apply x4 broadcasts_S1x128_S4000x128 p q

/-- Entry (p, q) of the second block the body stores: the first block's entry times the source column's entry p. -/
theorem rescaled_block_apply (x0 : Vec Ideal S4000x128 .f32) (x1 : Vec Ideal S4000x1 .f32)
    (x3 : Vec Ideal S128x128 .f32) (x4 : Vec Ideal S1x128 .f32) (x2 : Vec Ideal S4000x1 .f32) (p : Fin 4000) (q : Fin 128) :
    k2_pay2 x0 x1 x3 x4 x2 (ix2 p q) = k2_pay1 x0 x1 x3 x4 (ix2 p q) * x2 (ix2 p (0 : Fin 1)) := by
  unfold k2_pay2
  rw [mulf_apply, shapeCast_self]
  exact congrArg (k2_pay1 x0 x1 x3 x4 (ix2 p q) * ·) (RowOps.broadcastTo_a1_ab_apply x2 broadcasts_S4000x1_S4000x128 p q)

/-- On the row axis the three row-tiled inputs and both outputs have block index t at point t; the weights and
    the bias have their one block at every point. -/
theorem row_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of block t is row 4000·t + p of the array. -/
def row (t : Fin cfg2.N) (p : Fin 4000) : Fin 100000 :=
  ⟨t.val * 4000 + p.val, by have h : t.val < 25 := t.isLt; have := p.isLt; omega⟩

theorem msgs_block (c : Dev nD) (t : Fin cfg2.N) (p : Fin 4000) (k : Fin 128) :
    iblk2 V c 0 t (ix2 p k) = msgs V c (ix2 (row t p) k) := by
  obtain ⟨e0, e1, -⟩ := row_block_index t
  show msgs V c (((cfg2.win 0).blk t).view.emb (ix2 p k)) = _
  refine congrArg (msgs V c) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

theorem dstNorm_block (c : Dev nD) (t : Fin cfg2.N) (p : Fin 4000) :
    iblk2 V c 1 t (ix2 p (0 : Fin 1)) = dstNorm V c (ix2 (row t p) (0 : Fin 1)) := by
  obtain ⟨-, -, e2, e3, -⟩ := row_block_index t
  show dstNorm V c (((cfg2.win 1).blk t).view.emb (ix2 p (0 : Fin 1))) = _
  refine congrArg (dstNorm V c) (funext fun a => Fin.ext ?_)
  match a with
  | ⟨0, _⟩ => show win2_1.index t (0 : Fin 2) * 4000 + 1 * p.val = t.val * 4000 + p.val; omega
  | ⟨1, _⟩ => show win2_1.index t (1 : Fin 2) * 1 + 1 * 0 = 0; omega

theorem srcNorm_block (c : Dev nD) (t : Fin cfg2.N) (p : Fin 4000) :
    iblk2 V c 2 t (ix2 p (0 : Fin 1)) = srcNorm V c (ix2 (row t p) (0 : Fin 1)) := by
  obtain ⟨-, -, -, -, e4, e5, -⟩ := row_block_index t
  show srcNorm V c (((cfg2.win 2).blk t).view.emb (ix2 p (0 : Fin 1))) = _
  refine congrArg (srcNorm V c) (funext fun a => Fin.ext ?_)
  match a with
  | ⟨0, _⟩ => show win2_2.index t (0 : Fin 2) * 4000 + 1 * p.val = t.val * 4000 + p.val; omega
  | ⟨1, _⟩ => show win2_2.index t (1 : Fin 2) * 1 + 1 * 0 = 0; omega

theorem weights_block (c : Dev nD) (t : Fin cfg2.N) (k q : Fin 128) :
    iblk2 V c 3 t (ix2 k q) = weights V c (ix2 k q) := by
  obtain ⟨-, -, -, -, -, -, e6, e7, -⟩ := row_block_index t
  show weights V c (((cfg2.win 3).blk t).view.emb (ix2 k q)) = _
  refine congrArg (weights V c) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem bias_block (c : Dev nD) (t : Fin cfg2.N) (q : Fin 128) :
    iblk2 V c 4 t (ix2 (0 : Fin 1) q) = bias V c (ix2 (0 : Fin 1) q) := by
  obtain ⟨-, -, -, -, -, -, -, -, e8, e9, -⟩ := row_block_index t
  show bias V c (((cfg2.win 4).blk t).view.emb (ix2 (0 : Fin 1) q)) = _
  refine congrArg (bias V c) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem activated_index (t : Fin cfg2.N) (p : Fin 4000) (q : Fin 128) :
    ((cfg2.win 5).blk t).view.emb (ix2 p q) = ix2 (row t p) q := by
  obtain ⟨-, -, -, -, -, -, -, -, -, -, e10, e11, -⟩ := row_block_index t
  funext a; apply Fin.ext
  match a with
  | ⟨0, _⟩ => show win2_5.index t (0 : Fin 2) * 4000 + 1 * p.val = t.val * 4000 + p.val; omega
  | ⟨1, _⟩ => show win2_5.index t (1 : Fin 2) * 128 + 1 * q.val = q.val; omega

theorem rescaled_index (t : Fin cfg2.N) (p : Fin 4000) (q : Fin 128) :
    ((cfg2.win 6).blk t).view.emb (ix2 p q) = ix2 (row t p) q := by
  obtain ⟨-, -, -, -, -, -, -, -, -, -, -, -, e12, e13⟩ := row_block_index t
  funext a; apply Fin.ext
  match a with
  | ⟨0, _⟩ => show win2_6.index t (0 : Fin 2) * 4000 + 1 * p.val = t.val * 4000 + p.val; omega
  | ⟨1, _⟩ => show win2_6.index t (1 : Fin 2) * 128 + 1 * q.val = q.val; omega

/-- The layer's result before rescaling, as one function of the arrays the region finds. -/
abbrev activated (c : Dev nD) : FVec Ideal Feat .f32 :=
  relu (affine (msgs V c) (dstNorm V c) (weights V c) (bias V c))

/-- What point t writes back to the first output is block t of `activated`. -/
theorem activated_written_back (c : Dev nD) (t : Fin cfg2.N) :
    (dat2 V c).flushed 5 t = ((cfg2.win 5).blk t).view.read (Elt Ideal) (activated V c) := by
  show (cfg2.win 5).cut (grid2.coords t) ((dat2 V c).after 5 t) = _
  rw [after2_5]
  unfold out2_5
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (activated_block_apply _ _ _ _ p q).trans ?_
  show _ = activated V c (((cfg2.win 5).blk t).view.emb (ix2 p q))
  rw [activated_index]
  unfold activated
  rw [relu_apply, affine_apply]
  simp only [msgs_block, dstNorm_block, weights_block, bias_block]

/-- What point t writes back to the second output is block t of `activated` scaled row-wise by the source column. -/
theorem rescaled_written_back (c : Dev nD) (t : Fin cfg2.N) :
    (dat2 V c).flushed 6 t
      = ((cfg2.win 6).blk t).view.read (Elt Ideal) (scaleRows (activated V c) (srcNorm V c)) := by
  show (cfg2.win 6).cut (grid2.coords t) ((dat2 V c).after 6 t) = _
  rw [after2_6]
  unfold out2_6
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (rescaled_block_apply _ _ _ _ _ p q).trans ?_
  refine (congrArg (· * _) (activated_block_apply _ _ _ _ p q)).trans ?_
  show _ = scaleRows (activated V c) (srcNorm V c) (((cfg2.win 6).blk t).view.emb (ix2 p q))
  rw [rescaled_index, scaleRows_apply]
  unfold activated
  rw [relu_apply, affine_apply]
  simp only [msgs_block, dstNorm_block, srcNorm_block, weights_block, bias_block]

/-- An index lies in point t's block of an output iff, on each axis, its coordinate lies in the block's range. -/
theorem mem_activated_block (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v46_0).slice (win2_5.rect t)).set ↔ _
  rw [View.set_slice_whole, Rect.mem_set_unit]
  exact Iff.rfl

theorem mem_rescaled_block (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v46_1).slice (win2_6.rect t)).set ↔ _
  rw [View.set_slice_whole, Rect.mem_set_unit]
  exact Iff.rfl

/-- Row r belongs to the block of point r / 4000, and every point writes its blocks back. -/
theorem activated_covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 4000 < 25 := by omega
  obtain ⟨-, -, -, -, -, -, -, -, -, -, e10, e11, -⟩ := row_block_index ⟨(i 0).val / 4000, ht⟩
  refine ⟨⟨(i 0).val / 4000, ht⟩, flush2_5 _, ?_⟩
  rw [mem_activated_block]
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [e10]; show (i 0).val / 4000 * 4000 ≤ (i 0).val ∧ (i 0).val < (i 0).val / 4000 * 4000 + 4000; omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [e11]; omega

theorem rescaled_covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 4000 < 25 := by omega
  obtain ⟨-, -, -, -, -, -, -, -, -, -, -, -, e12, e13⟩ := row_block_index ⟨(i 0).val / 4000, ht⟩
  refine ⟨⟨(i 0).val / 4000, ht⟩, flush2_6 _, ?_⟩
  rw [mem_rescaled_block]
  intro a
  match a with
  | ⟨0, _⟩ =>
    show win2_6.index ⟨(i 0).val / 4000, ht⟩ (0 : Fin 2) * 4000 ≤ (i 0).val
      ∧ (i 0).val < win2_6.index ⟨(i 0).val / 4000, ht⟩ (0 : Fin 2) * 4000 + 4000
    rw [e12]; show (i 0).val / 4000 * 4000 ≤ (i 0).val ∧ (i 0).val < (i 0).val / 4000 * 4000 + 4000; omega
  | ⟨1, _⟩ =>
    show win2_6.index ⟨(i 0).val / 4000, ht⟩ (1 : Fin 2) * 128 ≤ (i 1).val
      ∧ (i 1).val < win2_6.index ⟨(i 0).val / 4000, ht⟩ (1 : Fin 2) * 128 + 128
    rw [e13]; omega

/-- The region's first output array: the layer's result, as one function of the arrays the region found. -/
theorem activated_array (c : Dev nD) : (dat2 V c).arrAt 5 cfg2.N = activated V c :=
  (dat2 V c).arrAt_eq_of_cover 5 _ (fun t _ => activated_written_back V c t) activated_covered

/-- The region's second output array: that result scaled row-wise by the source-degree normalisation. -/
theorem rescaled_array (c : Dev nD) : (dat2 V c).arrAt 6 cfg2.N = scaleRows (activated V c) (srcNorm V c) :=
  (dat2 V c).arrAt_eq_of_cover 6 _ (fun t _ => rescaled_written_back V c t) rescaled_covered

end Cert.KernelIdeal.Layer2

end
-- ==== Proof.KLayer3.lean ====
/-
  The last layer's kernel region: the aggregated messages are scaled row-wise by the destination-degree
  normalisation, multiplied by the layer's weights and shifted by its bias, with no clip at zero: this is the
  program's result. The region also writes that result scaled row-wise by the source-degree normalisation, which
  nothing reads afterwards.

  The region walks the 100000 rows in 25 blocks of 4000. At block t it reads rows 4000·t … 4000·t + 3999 of the
  messages and of the two normalisation columns, and the whole weight matrix and bias row (their one block), and
  writes the block back to the same rows of the two outputs. The blocks tile the rows, so each output array ends as
  one function of the arrays the region found.
-/
import proofs.«161367_j1872605741624_1_alg».proof.Proof.Gen.KernelIdeal.Frame
import proofs.«161367_j1872605741624_1_alg».proof.Proof.Spec
import proofs.«161367_j1872605741624_1_alg».proof.Proof.LibRowOps
import proofs.«161367_j1872605741624_1_alg».proof.Proof.KBlockProduct
import Idealize.ShloMosaic.Lib.Pipeline.Value
import Idealize.ShloMosaic.Lib.ValueIdx
import Idealize.ShloMosaic.Lib.ValueLayout

noncomputable section

namespace Cert.KernelIdeal.Layer3

open Idealize.ShloMosaic Idealize.ShloMosaic.TcCoe Idealize.SL.Sem Idealize.ShloMosaic.ValueIdx
open Idealize.ShloMosaic.Pipeline (Dat Cfg Window)
open Cert.KernelIdeal Cert.KernelIdeal.Gen Gcn

variable (V : (c : Dev nD) → (b : Ref sig .tc) → Buf (Elt Ideal) ((c : Thread nD τ).loc b))

/-- The aggregated messages as the region finds them. -/
abbrev msgs (c : Dev nD) : FVec Ideal Feat .f32 := V c main_v56
/-- The destination-degree normalisation column. -/
abbrev dstNorm (c : Dev nD) : FVec Ideal Col .f32 := V c main_v13
/-- The source-degree normalisation column. -/
abbrev srcNorm (c : Dev nD) : FVec Ideal Col .f32 := V c main_v11
/-- The layer's weights. -/
abbrev weights (c : Dev nD) : FVec Ideal Wt .f32 := V c main_v58
/-- The layer's bias row. -/
abbrev bias (c : Dev nD) : FVec Ideal BiasRow .f32 := V c main_v61

theorem origin2 : (![0, 0] : Fin 2 → Nat) = fun _ => 0 := funext fun a => by fin_cases a <;> rfl

/-- Entry (p, q) of the first block the body stores: row p of the messages scaled by the column's entry p, times
    column q of the weights, plus the bias entry q. -/
theorem activated_block_apply (x0 : Vec Ideal S4000x128 .f32) (x1 : Vec Ideal S4000x1 .f32)
    (x3 : Vec Ideal S128x128 .f32) (x4 : Vec Ideal S1x128 .f32) (p : Fin 4000) (q : Fin 128) :
    k3_pay1 x0 x1 x3 x4 (ix2 p q)
      = (∑ k : Fin 128, (x0 (ix2 p k) * x1 (ix2 p (0 : Fin 1))) * x3 (ix2 k q)) + x4 (ix2 (0 : Fin 1) q) := by
  unfold k3_pay1
  rw [addf_apply]
  refine congrArg₂ (· + ·) ?_ ?_
  · refine (BlockProduct.product_apply _ _ p q).trans (Finset.sum_congr rfl fun k _ => ?_)
    rw [truncf_apply, truncf_apply, mulf_apply, shapeCast_self, shapeCast_self, shapeCast_self]
    exact congrArg (fun z => x0 (ix2 p k) * z * x3 (ix2 k q))
      (RowOps.broadcastTo_a1_ab_apply x1 broadcasts_S4000x1_S4000x128 p k)
  · rw [shapeCast_self]; exact broadcastTo_1b_ab_apply x4 broadcasts_S1x128_S4000x128 p q

/-- Entry (p, q) of the second block the body stores: the first block's entry times the source column's entry p. -/
theorem rescaled_block_apply (x0 : Vec Ideal S4000x128 .f32) (x1 : Vec Ideal S4000x1 .f32)
    (x3 : Vec Ideal S128x128 .f32) (x4 : Vec Ideal S1x128 .f32) (x2 : Vec Ideal S4000x1 .f32) (p : Fin 4000) (q : Fin 128) :
    k3_pay2 x0 x1 x3 x4 x2 (ix2 p q) = k3_pay1 x0 x1 x3 x4 (ix2 p q) * x2 (ix2 p (0 : Fin 1)) := by
  unfold k3_pay2
  rw [mulf_apply, shapeCast_self]
  exact congrArg (k3_pay1 x0 x1 x3 x4 (ix2 p q) * ·) (RowOps.broadcastTo_a1_ab_apply x2 broadcasts_S4000x1_S4000x128 p q)

/-- On the row axis the three row-tiled inputs and both outputs have block index t at point t; the weights and
    the bias have their one block at every point. -/
theorem row_block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row p of block t is row 4000·t + p of the array. -/
def row (t : Fin cfg3.N) (p : Fin 4000) : Fin 100000 :=
  ⟨t.val * 4000 + p.val, by have h : t.val < 25 := t.isLt; have := p.isLt; omega⟩

theorem msgs_block (c : Dev nD) (t : Fin cfg3.N) (p : Fin 4000) (k : Fin 128) :
    iblk3 V c 0 t (ix2 p k) = msgs V c (ix2 (row t p) k) := by
  obtain ⟨e0, e1, -⟩ := row_block_index t
  show msgs V c (((cfg3.win 0).blk t).view.emb (ix2 p k)) = _
  refine congrArg (msgs V c) (funext fun a => Fin.ext ?_)
  match a with
  | ⟨0, _⟩ => show win3_0.index t (0 : Fin 2) * 4000 + 1 * p.val = t.val * 4000 + p.val; omega
  | ⟨1, _⟩ => show win3_0.index t (1 : Fin 2) * 128 + 1 * k.val = k.val; omega

theorem dstNorm_block (c : Dev nD) (t : Fin cfg3.N) (p : Fin 4000) :
    iblk3 V c 1 t (ix2 p (0 : Fin 1)) = dstNorm V c (ix2 (row t p) (0 : Fin 1)) := by
  obtain ⟨-, -, e2, e3, -⟩ := row_block_index t
  show dstNorm V c (((cfg3.win 1).blk t).view.emb (ix2 p (0 : Fin 1))) = _
  refine congrArg (dstNorm V c) (funext fun a => Fin.ext ?_)
  match a with
  | ⟨0, _⟩ => show win3_1.index t (0 : Fin 2) * 4000 + 1 * p.val = t.val * 4000 + p.val; omega
  | ⟨1, _⟩ => show win3_1.index t (1 : Fin 2) * 1 + 1 * 0 = 0; omega

theorem srcNorm_block (c : Dev nD) (t : Fin cfg3.N) (p : Fin 4000) :
    iblk3 V c 2 t (ix2 p (0 : Fin 1)) = srcNorm V c (ix2 (row t p) (0 : Fin 1)) := by
  obtain ⟨-, -, -, -, e4, e5, -⟩ := row_block_index t
  show srcNorm V c (((cfg3.win 2).blk t).view.emb (ix2 p (0 : Fin 1))) = _
  refine congrArg (srcNorm V c) (funext fun a => Fin.ext ?_)
  match a with
  | ⟨0, _⟩ => show win3_2.index t (0 : Fin 2) * 4000 + 1 * p.val = t.val * 4000 + p.val; omega
  | ⟨1, _⟩ => show win3_2.index t (1 : Fin 2) * 1 + 1 * 0 = 0; omega

theorem weights_block (c : Dev nD) (t : Fin cfg3.N) (k q : Fin 128) :
    iblk3 V c 3 t (ix2 k q) = weights V c (ix2 k q) := by
  obtain ⟨-, -, -, -, -, -, e6, e7, -⟩ := row_block_index t
  show weights V c (((cfg3.win 3).blk t).view.emb (ix2 k q)) = _
  refine congrArg (weights V c) (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

theorem bias_block (c : Dev nD) (t : Fin cfg3.N) (q : Fin 128) :
    iblk3 V c 4 t (ix2 (0 : Fin 1) q) = bias V c (ix2 (0 : Fin 1) q) := by
  obtain ⟨-, -, -, -, -, -, -, -, e8, e9, -⟩ := row_block_index t
  show bias V c (((cfg3.win 4).blk t).view.emb (ix2 (0 : Fin 1) q)) = _
  refine congrArg (bias V c) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

theorem activated_index (t : Fin cfg3.N) (p : Fin 4000) (q : Fin 128) :
    ((cfg3.win 5).blk t).view.emb (ix2 p q) = ix2 (row t p) q := by
  obtain ⟨-, -, -, -, -, -, -, -, -, -, e10, e11, -⟩ := row_block_index t
  funext a; apply Fin.ext
  match a with
  | ⟨0, _⟩ => show win3_5.index t (0 : Fin 2) * 4000 + 1 * p.val = t.val * 4000 + p.val; omega
  | ⟨1, _⟩ => show win3_5.index t (1 : Fin 2) * 128 + 1 * q.val = q.val; omega

theorem rescaled_index (t : Fin cfg3.N) (p : Fin 4000) (q : Fin 128) :
    ((cfg3.win 6).blk t).view.emb (ix2 p q) = ix2 (row t p) q := by
  obtain ⟨-, -, -, -, -, -, -, -, -, -, -, -, e12, e13⟩ := row_block_index t
  funext a; apply Fin.ext
  match a with
  | ⟨0, _⟩ => show win3_6.index t (0 : Fin 2) * 4000 + 1 * p.val = t.val * 4000 + p.val; omega
  | ⟨1, _⟩ => show win3_6.index t (1 : Fin 2) * 128 + 1 * q.val = q.val; omega

/-- The layer's result before rescaling, as one function of the arrays the region finds. -/
abbrev activated (c : Dev nD) : FVec Ideal Feat .f32 :=
  affine (msgs V c) (dstNorm V c) (weights V c) (bias V c)

/-- What point t writes back to the first output is block t of `activated`. -/
theorem activated_written_back (c : Dev nD) (t : Fin cfg3.N) :
    (dat3 V c).flushed 5 t = ((cfg3.win 5).blk t).view.read (Elt Ideal) (activated V c) := by
  show (cfg3.win 5).cut (grid3.coords t) ((dat3 V c).after 5 t) = _
  rw [after3_5]
  unfold out3_5
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (activated_block_apply _ _ _ _ p q).trans ?_
  show _ = activated V c (((cfg3.win 5).blk t).view.emb (ix2 p q))
  rw [activated_index]
  unfold activated
  rw [affine_apply]
  simp only [msgs_block, dstNorm_block, weights_block, bias_block]

/-- What point t writes back to the second output is block t of `activated` scaled row-wise by the source column. -/
theorem rescaled_written_back (c : Dev nD) (t : Fin cfg3.N) :
    (dat3 V c).flushed 6 t
      = ((cfg3.win 6).blk t).view.read (Elt Ideal) (scaleRows (activated V c) (srcNorm V c)) := by
  show (cfg3.win 6).cut (grid3.coords t) ((dat3 V c).after 6 t) = _
  rw [after3_6]
  unfold out3_6
  rw [View.canon_unit_zero origin2]
  simp only [View.ld_unit_zero (S := S4000x128) origin2, View.ld_unit_zero (S := S4000x1) origin2,
    View.ld_unit_zero (S := S128x128) origin2, View.ld_unit_zero (S := S1x128) origin2]
  funext j
  obtain ⟨p, q, rfl⟩ : ∃ (p : Fin 4000) (q : Fin 128), j = ix2 p q := ⟨j 0, j 1, eq_ix2 j⟩
  refine (rescaled_block_apply _ _ _ _ _ p q).trans ?_
  refine (congrArg (· * _) (activated_block_apply _ _ _ _ p q)).trans ?_
  show _ = scaleRows (activated V c) (srcNorm V c) (((cfg3.win 6).blk t).view.emb (ix2 p q))
  rw [rescaled_index, scaleRows_apply]
  unfold activated
  rw [affine_apply]
  simp only [msgs_block, dstNorm_block, srcNorm_block, weights_block, bias_block]

/-- An index lies in point t's block of an output iff, on each axis, its coordinate lies in the block's range. -/
theorem mem_activated_block (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v62_0).slice (win3_5.rect t)).set ↔ _
  rw [View.set_slice_whole, Rect.mem_set_unit]
  exact Iff.rfl

theorem mem_rescaled_block (t : Fin cfg3.N) (i : S100000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v62_1).slice (win3_6.rect t)).set ↔ _
  rw [View.set_slice_whole, Rect.mem_set_unit]
  exact Iff.rfl

/-- Row r belongs to the block of point r / 4000, and every point writes its blocks back. -/
theorem activated_covered (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 4000 < 25 := by omega
  obtain ⟨-, -, -, -, -, -, -, -, -, -, e10, e11, -⟩ := row_block_index ⟨(i 0).val / 4000, ht⟩
  refine ⟨⟨(i 0).val / 4000, ht⟩, flush3_5 _, ?_⟩
  rw [mem_activated_block]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e10]; show (i 0).val / 4000 * 4000 ≤ (i 0).val ∧ (i 0).val < (i 0).val / 4000 * 4000 + 4000; omega
  | ⟨1, _⟩ =>
    show win3_5.index ⟨(i 0).val / 4000, ht⟩ (1 : Fin 2) * 128 ≤ (i 1).val
      ∧ (i 1).val < win3_5.index ⟨(i 0).val / 4000, ht⟩ (1 : Fin 2) * 128 + 128
    rw [e11]; omega

theorem rescaled_covered (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 4000 < 25 := by omega
  obtain ⟨-, -, -, -, -, -, -, -, -, -, -, -, e12, e13⟩ := row_block_index ⟨(i 0).val / 4000, ht⟩
  refine ⟨⟨(i 0).val / 4000, ht⟩, flush3_6 _, ?_⟩
  rw [mem_rescaled_block]
  intro a
  match a with
  | ⟨0, _⟩ =>
    show win3_6.index ⟨(i 0).val / 4000, ht⟩ (0 : Fin 2) * 4000 ≤ (i 0).val
      ∧ (i 0).val < win3_6.index ⟨(i 0).val / 4000, ht⟩ (0 : Fin 2) * 4000 + 4000
    rw [e12]; show (i 0).val / 4000 * 4000 ≤ (i 0).val ∧ (i 0).val < (i 0).val / 4000 * 4000 + 4000; omega
  | ⟨1, _⟩ =>
    show win3_6.index ⟨(i 0).val / 4000, ht⟩ (1 : Fin 2) * 128 ≤ (i 1).val
      ∧ (i 1).val < win3_6.index ⟨(i 0).val / 4000, ht⟩ (1 : Fin 2) * 128 + 128
    rw [e13]; omega

/-- The region's first output array: the layer's result, as one function of the arrays the region found. -/
theorem activated_array (c : Dev nD) : (dat3 V c).arrAt 5 cfg3.N = activated V c :=
  (dat3 V c).arrAt_eq_of_cover 5 _ (fun t _ => activated_written_back V c t) activated_covered

/-- The region's second output array: that result scaled row-wise by the source-degree normalisation. -/
theorem rescaled_array (c : Dev nD) : (dat3 V c).arrAt 6 cfg3.N = scaleRows (activated V c) (srcNorm V c) :=
  (dat3 V c).arrAt_eq_of_cover 6 _ (fun t _ => rescaled_written_back V c t) rescaled_covered

end Cert.KernelIdeal.Layer3

end
-- ==== Proof.KValue.lean ====
/-
  The idealized kernel program's result as the three layers of `Gcn.gcn`.

  Between its four kernel regions the program runs host operations. The first stretch builds the self-looped edge
  lists and the two degree normalisations; each later stretch gathers the previous region's rescaled output at the
  edges' sources, sums it into the edges' destinations, and slices the layer's weights and bias out of the stacked
  arguments. Reading the buffers boundary by boundary, from the launch memory to the last region's exit, gives every
  region's inputs as functions of the arguments, and with the regions' own value lemmas the result buffer.
  A buffer that a stretch or a region does not write keeps its contents across it; for an input window of a region
  that is because an input's array is never written back.
-/
import proofs.«161367_j1872605741624_1_alg».proof.Proof.Gen.KernelIdeal.Frame
import proofs.«161367_j1872605741624_1_alg».proof.Proof.Spec
import proofs.«161367_j1872605741624_1_alg».proof.Proof.KScale
import proofs.«161367_j1872605741624_1_alg».proof.Proof.KLayer1
import proofs.«161367_j1872605741624_1_alg».proof.Proof.KLayer2
import proofs.«161367_j1872605741624_1_alg».proof.Proof.KLayer3
import Idealize.ShloMosaic.Lib.StableHlo.Run
import Idealize.ShloMosaic.Lib.ValueLayout

noncomputable section

namespace Cert.KernelIdeal.Value

open Idealize.ShloMosaic Idealize.ShloMosaic.TcCoe Idealize.SL.Sem Idealize.ShloMosaic.ValueIdx Idealize.ShloMosaic.StableHlo
open Cert.KernelIdeal Cert.KernelIdeal.Gen Gcn

/-! ## The host stretches' values as functions of the arguments -/

/-- An edge list with one self loop per node appended. -/
def edgeEnds (x : (⟨S1600000, .i32⟩ : BufTy).Contents (Elt Ideal)) : (⟨S1700000, .i32⟩ : BufTy).Contents (Elt Ideal) :=
  concatenate S1700000 0 [⟨S1600000, x⟩, ⟨S100000, iotaInDim S100000 32 0⟩] concatenates_S1600000_S100000_S1700000_d0

/-- The inverse square root of the number of edge ends at each node, as a column. -/
def degreeNorm (x : (⟨S1600000, .i32⟩ : BufTy).Contents (Elt Ideal)) : (⟨S100000x1, .f32⟩ : BufTy).Contents (Elt Ideal) :=
  broadcastInDim S100000x1 ![0] bcast_S100000_S100000x1_0
    (Host.rsqrt (F := Ideal) (Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (edgeEnds x))
      (broadcastInDim S1700000 ![] bcast_S_S1700000 (constant (F := Ideal) S_ .f32 0x3F800000#32))))

/-- Where the gather reads: the sources, a negative one moved up by the number of nodes, as a column of indices. -/
def gatherAt (x3 : (⟨S1600000, .i32⟩ : BufTy).Contents (Elt Ideal)) : (⟨S1700000x1, .i32⟩ : BufTy).Contents (Elt Ideal) :=
  broadcastInDim S1700000x1 ![0] bcast_S1700000_S1700000x1_0
    (select (cmpi .slt (edgeEnds x3) (broadcastInDim S1700000 ![] bcast_S_S1700000 (constantI S_ 32 0#32)))
      (addi (edgeEnds x3) (broadcastInDim S1700000 ![] bcast_S_S1700000 (constantI S_ 32 100000#32)))
      (edgeEnds x3))

/-- The edge aggregation: rows gathered at the edges' sources, summed into the rows of the edges' destinations. -/
def aggregate (x3 x4 : (⟨S1600000, .i32⟩ : BufTy).Contents (Elt Ideal)) (hs : (⟨S100000x128, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (edgeEnds x4))
    (Host.gather gather_S100000x128_S1700000x1_S1700000x128_1_0_n_n_0_1_1128 hs (gatherAt x3))

/-- Layer l's weights, sliced out of the stacked weights. -/
def weights0 (x1 : (⟨S3x128x128, .f32⟩ : BufTy).Contents (Elt Ideal)) : (⟨S128x128, .f32⟩ : BufTy).Contents (Elt Ideal) :=
  shapeCast S128x128 (extractStridedSlice S1x128x128 ![0, 0, 0] x1 slices_S3x128x128_S1x128x128_0_0_0) shapeCasts_S1x128x128_S128x128
def weights1 (x1 : (⟨S3x128x128, .f32⟩ : BufTy).Contents (Elt Ideal)) : (⟨S128x128, .f32⟩ : BufTy).Contents (Elt Ideal) :=
  shapeCast S128x128 (extractStridedSlice S1x128x128 ![1, 0, 0] x1 slices_S3x128x128_S1x128x128_1_0_0) shapeCasts_S1x128x128_S128x128
def weights2 (x1 : (⟨S3x128x128, .f32⟩ : BufTy).Contents (Elt Ideal)) : (⟨S128x128, .f32⟩ : BufTy).Contents (Elt Ideal) :=
  shapeCast S128x128 (extractStridedSlice S1x128x128 ![2, 0, 0] x1 slices_S3x128x128_S1x128x128_2_0_0) shapeCasts_S1x128x128_S128x128

/-- Layer l's bias vector, sliced out of the stacked biases. -/
def bias0 (x2 : (⟨S3x128, .f32⟩ : BufTy).Contents (Elt Ideal)) : (⟨S128, .f32⟩ : BufTy).Contents (Elt Ideal) :=
  shapeCast S128 (extractStridedSlice S1x128 ![0, 0] x2 slices_S3x128_S1x128_0_0) shapeCasts_S1x128_S128
def bias1 (x2 : (⟨S3x128, .f32⟩ : BufTy).Contents (Elt Ideal)) : (⟨S128, .f32⟩ : BufTy).Contents (Elt Ideal) :=
  shapeCast S128 (extractStridedSlice S1x128 ![1, 0] x2 slices_S3x128_S1x128_1_0) shapeCasts_S1x128_S128
def bias2 (x2 : (⟨S3x128, .f32⟩ : BufTy).Contents (Elt Ideal)) : (⟨S128, .f32⟩ : BufTy).Contents (Elt Ideal) :=
  shapeCast S128 (extractStridedSlice S1x128 ![2, 0] x2 slices_S3x128_S1x128_2_0) shapeCasts_S1x128_S128

/-- A bias vector reshaped to a row is the vector read along the row. -/
theorem reshape_row (b : (⟨S128, .f32⟩ : BufTy).Contents (Elt Ideal)) : shapeCast S1x128 b shapeCasts_S128_S1x128 = asRow b := by
  funext j
  obtain ⟨u, q, rfl⟩ : ∃ (u : Fin 1) (q : Fin 128), j = ix2 u q := ⟨j 0, j 1, eq_ix2 j⟩
  exact shapeCast_a_1a_apply b shapeCasts_S128_S1x128 u q

/-! ## The buffers, boundary by boundary -/

variable (m : (ℓ : Loc nD τ sig) → Buf (Elt Ideal) ℓ) (ρ : Dev nD → PrngReg) (c : Dev nD)

/-- The arguments at launch. -/
abbrev a0 : (⟨S100000x128, .f32⟩ : BufTy).Contents (Elt Ideal) := m ((c : Thread nD τ).loc main_arg0)
abbrev a1 : (⟨S3x128x128, .f32⟩ : BufTy).Contents (Elt Ideal) := m ((c : Thread nD τ).loc main_arg1)
abbrev a2 : (⟨S3x128, .f32⟩ : BufTy).Contents (Elt Ideal) := m ((c : Thread nD τ).loc main_arg2)
abbrev a3 : (⟨S1600000, .i32⟩ : BufTy).Contents (Elt Ideal) := m ((c : Thread nD τ).loc main_arg3)
abbrev a4 : (⟨S1600000, .i32⟩ : BufTy).Contents (Elt Ideal) := m ((c : Thread nD τ).loc main_arg4)

/-! ### After the first host stretch -/

theorem at1_feats : W1 m ρ c (Proc.devRef .tc main_arg0) = a0 m c := by
  dsimp only [W1, hostOps0]; after_results
theorem at1_weights : W1 m ρ c (Proc.devRef .tc main_arg1) = a1 m c := by
  dsimp only [W1, hostOps0]; after_results
theorem at1_biases : W1 m ρ c (Proc.devRef .tc main_arg2) = a2 m c := by
  dsimp only [W1, hostOps0]; after_results
theorem at1_srcs : W1 m ρ c (Proc.devRef .tc main_v1) = edgeEnds (a3 m c) := by
  dsimp only [W1, hostOps0]; after_results; rfl
theorem at1_dsts : W1 m ρ c (Proc.devRef .tc main_v2) = edgeEnds (a4 m c) := by
  dsimp only [W1, hostOps0]; after_results; rfl
theorem at1_srcNorm : W1 m ρ c (Proc.devRef .tc main_v11) = degreeNorm (a3 m c) := by
  dsimp only [W1, hostOps0]; after_results; rfl
theorem at1_dstNorm : W1 m ρ c (Proc.devRef .tc main_v13) = degreeNorm (a4 m c) := by
  dsimp only [W1, hostOps0]; after_results; rfl

/-! ## The stages as functions of the arguments -/

/-- The features scaled by the source normalisation: what layer 1 aggregates. -/
def stage0 : (⟨S100000x128, .f32⟩ : BufTy).Contents (Elt Ideal) := scaleRows (a0 m c) (degreeNorm (a3 m c))
/-- Layer 1's result. -/
def act1 : (⟨S100000x128, .f32⟩ : BufTy).Contents (Elt Ideal) :=
  relu (affine (aggregate (a3 m c) (a4 m c) (stage0 m c)) (degreeNorm (a4 m c)) (weights0 (a1 m c)) (asRow (bias0 (a2 m c))))
def stage1 : (⟨S100000x128, .f32⟩ : BufTy).Contents (Elt Ideal) := scaleRows (act1 m c) (degreeNorm (a3 m c))
/-- Layer 2's result. -/
def act2 : (⟨S100000x128, .f32⟩ : BufTy).Contents (Elt Ideal) :=
  relu (affine (aggregate (a3 m c) (a4 m c) (stage1 m c)) (degreeNorm (a4 m c)) (weights1 (a1 m c)) (asRow (bias1 (a2 m c))))
def stage2 : (⟨S100000x128, .f32⟩ : BufTy).Contents (Elt Ideal) := scaleRows (act2 m c) (degreeNorm (a3 m c))
/-- Layer 3's result: the program's. -/
def out3 : (⟨S100000x128, .f32⟩ : BufTy).Contents (Elt Ideal) :=
  affine (aggregate (a3 m c) (a4 m c) (stage2 m c)) (degreeNorm (a4 m c)) (weights2 (a1 m c)) (asRow (bias2 (a2 m c)))

/-! ### After the scaling region -/

theorem at2_rescaled : W2 m ρ c (Proc.devRef .tc main_v14) = stage0 m c := by
  refine (W2_arr m ρ c 2).trans ((Scale.scaled_array (V1 m ρ) c).trans ?_)
  show scaleRows (W1 m ρ c (Proc.devRef .tc main_arg0)) (W1 m ρ c (Proc.devRef .tc main_v11))
    = scaleRows (a0 m c) (degreeNorm (a3 m c))
  rw [at1_feats, at1_srcNorm]
theorem at2_weights : W2 m ρ c (Proc.devRef .tc main_arg1) = a1 m c :=
  (W2_of_ne m ρ c main_arg1 (by decide)).trans (at1_weights m ρ c)
theorem at2_biases : W2 m ρ c (Proc.devRef .tc main_arg2) = a2 m c :=
  (W2_of_ne m ρ c main_arg2 (by decide)).trans (at1_biases m ρ c)
theorem at2_srcs : W2 m ρ c (Proc.devRef .tc main_v1) = edgeEnds (a3 m c) :=
  (W2_of_ne m ρ c main_v1 (by decide)).trans (at1_srcs m ρ c)
theorem at2_dsts : W2 m ρ c (Proc.devRef .tc main_v2) = edgeEnds (a4 m c) :=
  (W2_of_ne m ρ c main_v2 (by decide)).trans (at1_dsts m ρ c)
theorem at2_srcNorm : W2 m ρ c (Proc.devRef .tc main_v11) = degreeNorm (a3 m c) :=
  ((W2_arr m ρ c 1).trans (((dat0 (V1 m ρ) c).arrAt_in 1 rfl _).trans (A_eq0 (V1 m ρ) c 1))).trans (at1_srcNorm m ρ c)
theorem at2_dstNorm : W2 m ρ c (Proc.devRef .tc main_v13) = degreeNorm (a4 m c) :=
  (W2_of_ne m ρ c main_v13 (by decide)).trans (at1_dstNorm m ρ c)

/-! ### After the host stretch before layer 1's region -/

set_option maxHeartbeats 1600000 in
theorem at3_msgs : W3 m ρ c (Proc.devRef .tc main_v24) = aggregate (a3 m c) (a4 m c) (stage0 m c) := by
  dsimp only [W3, hostOps1]; after_results
  rw [at2_rescaled, at2_srcs, at2_dsts]; rfl
theorem at3_layerWeights : W3 m ρ c (Proc.devRef .tc main_v26) = weights0 (a1 m c) := by
  dsimp only [W3, hostOps1]; after_results
  rw [at2_weights]; rfl
theorem at3_layerBias : W3 m ρ c (Proc.devRef .tc main_v29) = asRow (bias0 (a2 m c)) := by
  dsimp only [W3, hostOps1]; after_results
  rw [at2_biases]; exact reshape_row (bias0 (a2 m c))
theorem at3_weights : W3 m ρ c (Proc.devRef .tc main_arg1) = a1 m c := by
  dsimp only [W3, hostOps1]; after_results; exact at2_weights m ρ c
theorem at3_biases : W3 m ρ c (Proc.devRef .tc main_arg2) = a2 m c := by
  dsimp only [W3, hostOps1]; after_results; exact at2_biases m ρ c
theorem at3_srcs : W3 m ρ c (Proc.devRef .tc main_v1) = edgeEnds (a3 m c) := by
  dsimp only [W3, hostOps1]; after_results; exact at2_srcs m ρ c
theorem at3_dsts : W3 m ρ c (Proc.devRef .tc main_v2) = edgeEnds (a4 m c) := by
  dsimp only [W3, hostOps1]; after_results; exact at2_dsts m ρ c
theorem at3_srcNorm : W3 m ρ c (Proc.devRef .tc main_v11) = degreeNorm (a3 m c) := by
  dsimp only [W3, hostOps1]; after_results; exact at2_srcNorm m ρ c
theorem at3_dstNorm : W3 m ρ c (Proc.devRef .tc main_v13) = degreeNorm (a4 m c) := by
  dsimp only [W3, hostOps1]; after_results; exact at2_dstNorm m ρ c

/-! ### After layer 1's region -/

theorem at4_rescaled : W4 m ρ c (Proc.devRef .tc main_v30_1) = stage1 m c := by
  refine (W4_arr m ρ c 6).trans ((Layer1.rescaled_array (V3 m ρ) c).trans ?_)
  show scaleRows (relu (affine (W3 m ρ c (Proc.devRef .tc main_v24)) (W3 m ρ c (Proc.devRef .tc main_v13))
      (W3 m ρ c (Proc.devRef .tc main_v26)) (W3 m ρ c (Proc.devRef .tc main_v29)))) (W3 m ρ c (Proc.devRef .tc main_v11))
    = scaleRows (relu (affine (aggregate (a3 m c) (a4 m c) (stage0 m c)) (degreeNorm (a4 m c)) (weights0 (a1 m c)) (asRow (bias0 (a2 m c))))) (degreeNorm (a3 m c))
  rw [at3_msgs, at3_dstNorm, at3_layerWeights, at3_layerBias, at3_srcNorm]
theorem at4_weights : W4 m ρ c (Proc.devRef .tc main_arg1) = a1 m c :=
  (W4_of_ne m ρ c main_arg1 (by decide)).trans (at3_weights m ρ c)
theorem at4_biases : W4 m ρ c (Proc.devRef .tc main_arg2) = a2 m c :=
  (W4_of_ne m ρ c main_arg2 (by decide)).trans (at3_biases m ρ c)
theorem at4_srcs : W4 m ρ c (Proc.devRef .tc main_v1) = edgeEnds (a3 m c) :=
  (W4_of_ne m ρ c main_v1 (by decide)).trans (at3_srcs m ρ c)
theorem at4_dsts : W4 m ρ c (Proc.devRef .tc main_v2) = edgeEnds (a4 m c) :=
  (W4_of_ne m ρ c main_v2 (by decide)).trans (at3_dsts m ρ c)
theorem at4_srcNorm : W4 m ρ c (Proc.devRef .tc main_v11) = degreeNorm (a3 m c) :=
  ((W4_arr m ρ c 2).trans (((dat1 (V3 m ρ) c).arrAt_in 2 rfl _).trans (A_eq1 (V3 m ρ) c 2))).trans (at3_srcNorm m ρ c)
theorem at4_dstNorm : W4 m ρ c (Proc.devRef .tc main_v13) = degreeNorm (a4 m c) :=
  ((W4_arr m ρ c 1).trans (((dat1 (V3 m ρ) c).arrAt_in 1 rfl _).trans (A_eq1 (V3 m ρ) c 1))).trans (at3_dstNorm m ρ c)

/-! ### After the host stretch before layer 2's region -/

set_option maxHeartbeats 1600000 in
theorem at5_msgs : W5 m ρ c (Proc.devRef .tc main_v40) = aggregate (a3 m c) (a4 m c) (stage1 m c) := by
  dsimp only [W5, hostOps2]; after_results
  rw [at4_rescaled, at4_srcs, at4_dsts]; rfl
theorem at5_layerWeights : W5 m ρ c (Proc.devRef .tc main_v42) = weights1 (a1 m c) := by
  dsimp only [W5, hostOps2]; after_results
  rw [at4_weights]; rfl
theorem at5_layerBias : W5 m ρ c (Proc.devRef .tc main_v45) = asRow (bias1 (a2 m c)) := by
  dsimp only [W5, hostOps2]; after_results
  rw [at4_biases]; exact reshape_row (bias1 (a2 m c))
theorem at5_weights : W5 m ρ c (Proc.devRef .tc main_arg1) = a1 m c := by
  dsimp only [W5, hostOps2]; after_results; exact at4_weights m ρ c
theorem at5_biases : W5 m ρ c (Proc.devRef .tc main_arg2) = a2 m c := by
  dsimp only [W5, hostOps2]; after_results; exact at4_biases m ρ c
theorem at5_srcs : W5 m ρ c (Proc.devRef .tc main_v1) = edgeEnds (a3 m c) := by
  dsimp only [W5, hostOps2]; after_results; exact at4_srcs m ρ c
theorem at5_dsts : W5 m ρ c (Proc.devRef .tc main_v2) = edgeEnds (a4 m c) := by
  dsimp only [W5, hostOps2]; after_results; exact at4_dsts m ρ c
theorem at5_srcNorm : W5 m ρ c (Proc.devRef .tc main_v11) = degreeNorm (a3 m c) := by
  dsimp only [W5, hostOps2]; after_results; exact at4_srcNorm m ρ c
theorem at5_dstNorm : W5 m ρ c (Proc.devRef .tc main_v13) = degreeNorm (a4 m c) := by
  dsimp only [W5, hostOps2]; after_results; exact at4_dstNorm m ρ c

/-! ### After layer 2's region -/

theorem at6_rescaled : W6 m ρ c (Proc.devRef .tc main_v46_1) = stage2 m c := by
  refine (W6_arr m ρ c 6).trans ((Layer2.rescaled_array (V5 m ρ) c).trans ?_)
  show scaleRows (relu (affine (W5 m ρ c (Proc.devRef .tc main_v40)) (W5 m ρ c (Proc.devRef .tc main_v13))
      (W5 m ρ c (Proc.devRef .tc main_v42)) (W5 m ρ c (Proc.devRef .tc main_v45)))) (W5 m ρ c (Proc.devRef .tc main_v11))
    = scaleRows (relu (affine (aggregate (a3 m c) (a4 m c) (stage1 m c)) (degreeNorm (a4 m c)) (weights1 (a1 m c)) (asRow (bias1 (a2 m c))))) (degreeNorm (a3 m c))
  rw [at5_msgs, at5_dstNorm, at5_layerWeights, at5_layerBias, at5_srcNorm]
theorem at6_weights : W6 m ρ c (Proc.devRef .tc main_arg1) = a1 m c :=
  (W6_of_ne m ρ c main_arg1 (by decide)).trans (at5_weights m ρ c)
theorem at6_biases : W6 m ρ c (Proc.devRef .tc main_arg2) = a2 m c :=
  (W6_of_ne m ρ c main_arg2 (by decide)).trans (at5_biases m ρ c)
theorem at6_srcs : W6 m ρ c (Proc.devRef .tc main_v1) = edgeEnds (a3 m c) :=
  (W6_of_ne m ρ c main_v1 (by decide)).trans (at5_srcs m ρ c)
theorem at6_dsts : W6 m ρ c (Proc.devRef .tc main_v2) = edgeEnds (a4 m c) :=
  (W6_of_ne m ρ c main_v2 (by decide)).trans (at5_dsts m ρ c)
theorem at6_srcNorm : W6 m ρ c (Proc.devRef .tc main_v11) = degreeNorm (a3 m c) :=
  ((W6_arr m ρ c 2).trans (((dat2 (V5 m ρ) c).arrAt_in 2 rfl _).trans (A_eq2 (V5 m ρ) c 2))).trans (at5_srcNorm m ρ c)
theorem at6_dstNorm : W6 m ρ c (Proc.devRef .tc main_v13) = degreeNorm (a4 m c) :=
  ((W6_arr m ρ c 1).trans (((dat2 (V5 m ρ) c).arrAt_in 1 rfl _).trans (A_eq2 (V5 m ρ) c 1))).trans (at5_dstNorm m ρ c)

/-! ### After the host stretch before layer 3's region -/

set_option maxHeartbeats 1600000 in
theorem at7_msgs : W7 m ρ c (Proc.devRef .tc main_v56) = aggregate (a3 m c) (a4 m c) (stage2 m c) := by
  dsimp only [W7, hostOps3]; after_results
  rw [at6_rescaled, at6_srcs, at6_dsts]; rfl
theorem at7_layerWeights : W7 m ρ c (Proc.devRef .tc main_v58) = weights2 (a1 m c) := by
  dsimp only [W7, hostOps3]; after_results
  rw [at6_weights]; rfl
theorem at7_layerBias : W7 m ρ c (Proc.devRef .tc main_v61) = asRow (bias2 (a2 m c)) := by
  dsimp only [W7, hostOps3]; after_results
  rw [at6_biases]; exact reshape_row (bias2 (a2 m c))
theorem at7_srcNorm : W7 m ρ c (Proc.devRef .tc main_v11) = degreeNorm (a3 m c) := by
  dsimp only [W7, hostOps3]; after_results; exact at6_srcNorm m ρ c
theorem at7_dstNorm : W7 m ρ c (Proc.devRef .tc main_v13) = degreeNorm (a4 m c) := by
  dsimp only [W7, hostOps3]; after_results; exact at6_dstNorm m ρ c

/-! ### After layer 3's region: the result -/

theorem result_at_exit : W8 m ρ c (Proc.devRef .tc main_v62_0) = out3 m c := by
  refine (W8_arr m ρ c 5).trans ((Layer3.activated_array (V7 m ρ) c).trans ?_)
  show affine (W7 m ρ c (Proc.devRef .tc main_v56)) (W7 m ρ c (Proc.devRef .tc main_v13))
      (W7 m ρ c (Proc.devRef .tc main_v58)) (W7 m ρ c (Proc.devRef .tc main_v61))
    = affine (aggregate (a3 m c) (a4 m c) (stage2 m c)) (degreeNorm (a4 m c)) (weights2 (a1 m c)) (asRow (bias2 (a2 m c)))
  rw [at7_msgs, at7_dstNorm, at7_layerWeights, at7_layerBias]

/-- The kernel program's result is the three layers around its edge aggregation. -/
theorem result_eq : W8 m ρ c (Proc.devRef .tc main_v62_0)
    = gcn (aggregate (a3 m c) (a4 m c)) (a0 m c) (degreeNorm (a3 m c)) (degreeNorm (a4 m c))
        (weights0 (a1 m c)) (asRow (bias0 (a2 m c))) (weights1 (a1 m c)) (asRow (bias1 (a2 m c)))
        (weights2 (a1 m c)) (asRow (bias2 (a2 m c))) :=
  result_at_exit m ρ c

end Cert.KernelIdeal.Value

end
-- ==== Proof.RefLayers.lean ====
/-
  The reference program's result as the three layers of `Gcn.gcn`.

  The reference is host operations only. Its dense steps are the layer functions written with whole-array operations:
  a column [100000, 1] broadcast along the rows and multiplied in is `scaleRows`; the scaled messages times the
  weights (a `dot_general` contracting the 128 features) plus the bias broadcast over the rows is `affine`; the
  maximum with a broadcast zero is `relu`. Each is read at an entry (p, q). The edge aggregation (a gather at the
  edges' sources followed by a scatter-add at their destinations) is the same function of its operand in every
  layer and is carried unopened.
-/
import proofs.«161367_j1872605741624_1_alg».proof.Proof.Gen.ReferenceIdeal.Read
import proofs.«161367_j1872605741624_1_alg».proof.Proof.Spec

noncomputable section

namespace Cert.ReferenceIdeal.Layers

open Idealize.ShloMosaic Idealize.ShloMosaic.ValueIdx Cert.ReferenceIdeal Cert.ReferenceIdeal.Gen Cert.ReferenceIdeal.Read Gcn

/-! ## The host forms of the layer functions -/

/-- A column broadcast along the rows reads, at (p, q), the column's entry p. -/
theorem column_over_rows (n : FVec Ideal S100000x1 .f32) (p : Fin 100000) (q : Fin 128) :
    broadcastInDim S100000x128 ![0, 1] bcast_S100000x1_S100000x128_0_1 n (ix2 p q) = n (ix2 p (0 : Fin 1)) :=
  broadcastInDim_apply _ bcast_S100000x1_S100000x128_0_1 n (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A bias vector made a row and broadcast over the rows reads, at (p, q), the vector's entry q. -/
theorem bias_over_rows (b : FVec Ideal S128 .f32) (p : Fin 100000) (q : Fin 128) :
    broadcastInDim S100000x128 ![0, 1] bcast_S1x128_S100000x128_0_1
        (broadcastInDim S1x128 ![1] bcast_S128_S1x128_1 b) (ix2 p q) = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- Multiplying by a column broadcast along the rows scales the rows. -/
theorem scale_host (x : FVec Ideal S100000x128 .f32) (n : FVec Ideal S100000x1 .f32) :
    mulf x (broadcastInDim S100000x128 ![0, 1] bcast_S100000x1_S100000x128_0_1 n) = scaleRows x n := by
  funext i
  obtain ⟨p, q, rfl⟩ : ∃ (p : Fin 100000) (q : Fin 128), i = ix2 p q := ⟨i 0, i 1, eq_ix2 i⟩
  rw [mulf_apply, column_over_rows, scaleRows_apply]

/-- The scaled messages times the weights plus the broadcast bias: entry (p, q) is the sum over the contracted
    feature k of (m (p, k) · nd p) · W (k, q), plus b q. -/
theorem affine_host (m : FVec Ideal S100000x128 .f32) (nd : FVec Ideal S100000x1 .f32) (W : FVec Ideal S128x128 .f32)
    (b : FVec Ideal S128 .f32) :
    addf (Host.dotGeneral dot_S100000x128_S128x128_S100000x128_1_0_0_1_n_n none
            (mulf m (broadcastInDim S100000x128 ![0, 1] bcast_S100000x1_S100000x128_0_1 nd)) W)
         (broadcastInDim S100000x128 ![0, 1] bcast_S1x128_S100000x128_0_1
            (broadcastInDim S1x128 ![1] bcast_S128_S1x128_1 b))
      = affine m nd W (asRow b) := by
  funext i
  obtain ⟨p, q, rfl⟩ : ∃ (p : Fin 100000) (q : Fin 128), i = ix2 p q := ⟨i 0, i 1, eq_ix2 i⟩
  rw [addf_apply, bias_over_rows, affine_apply, asRow_apply]
  refine congrArg (· + b (ix1 q)) ?_
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_main_v30_0 _ _
    | ⟨1, _⟩ => exact (lhs_main_v30_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_main_v30_0 _ _).trans hk
    | ⟨1, _⟩ => exact rhs_main_v30_1 _ _)
  rw [el, er, mulf_apply, column_over_rows]

/-- The maximum with a broadcast zero clips every entry at zero. -/
theorem relu_host (h : FVec Ideal S100000x128 .f32) :
    maximumf h (broadcastInDim S100000x128 ![] bcast_S_S100000x128 (constant S_ .f32 0x00000000#32)) = relu h := by
  funext i
  rw [maximumf_apply, relu_apply]
  exact congrArg (max (h i)) (broadcastInDim_apply _ bcast_S_S100000x128 _ i ix0 (fun a => a.elim0))

/-! ## The stages of the reference -/

variable (x0 : (⟨S100000x128, .f32⟩ : BufTy).Contents (Elt Ideal)) (x1 : (⟨S3x128x128, .f32⟩ : BufTy).Contents (Elt Ideal))
  (x2 : (⟨S3x128, .f32⟩ : BufTy).Contents (Elt Ideal)) (x3 x4 : (⟨S1600000, .i32⟩ : BufTy).Contents (Elt Ideal))

/-- The edge aggregation: rows gathered at the edges' sources (self loops appended), summed into the rows of the
    edges' destinations. -/
def aggregate (hs : FVec Ideal S100000x128 .f32) : FVec Ideal S100000x128 .f32 :=
  Host.scatterAdd scatter_S100000x128_S1700000x1_S1700000x128_1_0_0_1 (val_main_v23 (F := Ideal)) (val_main_v24 (F := Ideal) x4)
    (Host.gather gather_S100000x128_S1700000x1_S1700000x128_1_0_n_n_0_1_1128 hs (val_main_v21 (F := Ideal) x3))

theorem scaled0 : val_main_v15 (F := Ideal) x0 x3 = scaleRows x0 (val_main_v11 (F := Ideal) x3) := by
  unfold val_main_v15 val_main_v14; exact scale_host _ _

theorem agg1 : val_main_v25 (F := Ideal) x0 x3 x4 = aggregate x3 x4 (val_main_v15 (F := Ideal) x0 x3) := rfl

theorem pre1 : val_main_v35 (F := Ideal) x0 x1 x2 x3 x4
    = affine (val_main_v25 (F := Ideal) x0 x3 x4) (val_main_v13 (F := Ideal) x4) (val_main_v29 (F := Ideal) x1)
        (asRow (val_main_v32 (F := Ideal) x2)) := by
  unfold val_main_v35 val_main_v30 val_main_v27 val_main_v26 val_main_v34 val_main_v33; exact affine_host _ _ _ _

theorem act1 : val_main_v36 (F := Ideal) x0 x1 x2 x3 x4 = relu (val_main_v35 (F := Ideal) x0 x1 x2 x3 x4) := by
  unfold val_main_v36 val_main_call0_v0 val_main_call0_cst; exact relu_host _

theorem scaled1 : val_main_v38 (F := Ideal) x0 x1 x2 x3 x4 = scaleRows (val_main_v36 (F := Ideal) x0 x1 x2 x3 x4) (val_main_v11 (F := Ideal) x3) := by
  unfold val_main_v38 val_main_v37; exact scale_host _ _

theorem agg2 : val_main_v48 (F := Ideal) x0 x1 x2 x3 x4 = aggregate x3 x4 (val_main_v38 (F := Ideal) x0 x1 x2 x3 x4) := rfl

theorem pre2 : val_main_v58 (F := Ideal) x0 x1 x2 x3 x4
    = affine (val_main_v48 (F := Ideal) x0 x1 x2 x3 x4) (val_main_v13 (F := Ideal) x4) (val_main_v52 (F := Ideal) x1)
        (asRow (val_main_v55 (F := Ideal) x2)) := by
  unfold val_main_v58 val_main_v53 val_main_v50 val_main_v49 val_main_v57 val_main_v56; exact affine_host _ _ _ _

theorem act2 : val_main_v59 (F := Ideal) x0 x1 x2 x3 x4 = relu (val_main_v58 (F := Ideal) x0 x1 x2 x3 x4) := by
  unfold val_main_v59 val_main_call1_v0 val_main_call1_cst; exact relu_host _

theorem scaled2 : val_main_v61 (F := Ideal) x0 x1 x2 x3 x4 = scaleRows (val_main_v59 (F := Ideal) x0 x1 x2 x3 x4) (val_main_v11 (F := Ideal) x3) := by
  unfold val_main_v61 val_main_v60; exact scale_host _ _

theorem agg3 : val_main_v71 (F := Ideal) x0 x1 x2 x3 x4 = aggregate x3 x4 (val_main_v61 (F := Ideal) x0 x1 x2 x3 x4) := rfl

theorem pre3 : val_main_v81 (F := Ideal) x0 x1 x2 x3 x4
    = affine (val_main_v71 (F := Ideal) x0 x1 x2 x3 x4) (val_main_v13 (F := Ideal) x4) (val_main_v75 (F := Ideal) x1)
        (asRow (val_main_v78 (F := Ideal) x2)) := by
  unfold val_main_v81 val_main_v76 val_main_v73 val_main_v72 val_main_v80 val_main_v79; exact affine_host _ _ _ _

/-- The reference's result is the three layers around its edge aggregation. -/
theorem result_eq : val_main_v81 (F := Ideal) x0 x1 x2 x3 x4
    = gcn (aggregate x3 x4) x0 (val_main_v11 (F := Ideal) x3) (val_main_v13 (F := Ideal) x4)
        (val_main_v29 (F := Ideal) x1) (asRow (val_main_v32 (F := Ideal) x2))
        (val_main_v52 (F := Ideal) x1) (asRow (val_main_v55 (F := Ideal) x2))
        (val_main_v75 (F := Ideal) x1) (asRow (val_main_v78 (F := Ideal) x2)) := by
  unfold gcn
  rw [pre3, agg3, scaled2, act2, pre2, agg2, scaled1, act1, pre1, agg1, scaled0]

end Cert.ReferenceIdeal.Layers

end
-- ==== Proof.lean ====
/-
  Three graph-convolution layers on 100000 nodes with 128 features: a Pallas program against its jnp reference,
  equal over the extended reals.

  Both programs build the self-looped edge lists, the in- and out-degree of every node and the two normalisations
  1/sqrt(degree) with the same host operations. In each layer the features, scaled row-wise by the source
  normalisation, are gathered along the edges and summed into the destination rows (host operations in both
  programs); the sums are scaled row-wise by the destination normalisation, multiplied by the layer's weights and
  shifted by its bias, and in the first two layers clipped at zero. The kernel program does the dense part of a layer
  in a kernel region tiled over blocks of 4000 rows (with the weights cast to bf16, which is the identity at the
  extended reals, and the product taken into a zero accumulator), and fuses the next layer's row scaling into the
  same region; the reference does it with whole-array operations. Read entry by entry the two are the same sums,
  products and maxima in the same order, so no law of arithmetic beyond the definition of a matrix product and of a
  broadcast is used, and the precondition (finite inputs) is never opened.

  `KRun` re-posts the kernel program's frame run with the result buffer named; `KValue` reads that buffer as
  `Gcn.gcn` of the arguments, region by region (`KScale`, `KLayer1` – `KLayer3` over `KBlockProduct`); `RefLayers`
  reads the reference's result as the same `Gcn.gcn`; below, the two agree leaf by leaf.
-/
import proofs.«161367_j1872605741624_1_alg».proof.Defs
import proofs.«161367_j1872605741624_1_alg».proof.Proof.Gen.Kernel
import proofs.«161367_j1872605741624_1_alg».proof.Proof.Gen.Kernel.Frame
import proofs.«161367_j1872605741624_1_alg».proof.Proof.Gen.KernelIdeal
import proofs.«161367_j1872605741624_1_alg».proof.Proof.Gen.KernelIdeal.Frame
import proofs.«161367_j1872605741624_1_alg».proof.Proof.Gen.ReferenceIdeal
import proofs.«161367_j1872605741624_1_alg».proof.Proof.Gen.ReferenceIdeal.Run
import proofs.«161367_j1872605741624_1_alg».proof.Proof.Gen.ReferenceIdeal.Read
import proofs.«161367_j1872605741624_1_alg».proof.Proof.Gen.Pre_finite_inputs
import proofs.«161367_j1872605741624_1_alg».proof.Proof.KRun
import proofs.«161367_j1872605741624_1_alg».proof.Proof.KValue
import proofs.«161367_j1872605741624_1_alg».proof.Proof.RefLayers
import Idealize.ShloMosaic.Adequacy
import Idealize.ShloMosaic.Init

noncomputable section

namespace Cert.Proof

open Idealize.ShloMosaic Idealize.ShloMosaic.TcCoe Idealize.SL.Sem

/-! ## The two programs' leaves are the same terms -/

section Leaves

variable (x1 : (⟨Cert.ReferenceIdeal.S3x128x128, .f32⟩ : BufTy).Contents (Elt Ideal))
  (x2 : (⟨Cert.ReferenceIdeal.S3x128, .f32⟩ : BufTy).Contents (Elt Ideal))
  (x3 x4 : (⟨Cert.ReferenceIdeal.S1600000, .i32⟩ : BufTy).Contents (Elt Ideal))

theorem same_aggregate : Cert.KernelIdeal.Value.aggregate x3 x4 = Cert.ReferenceIdeal.Layers.aggregate x3 x4 := rfl
theorem same_srcNorm : Cert.KernelIdeal.Value.degreeNorm x3 = Cert.ReferenceIdeal.Read.val_main_v11 (F := Ideal) x3 := rfl
theorem same_dstNorm : Cert.KernelIdeal.Value.degreeNorm x4 = Cert.ReferenceIdeal.Read.val_main_v13 (F := Ideal) x4 := rfl
theorem same_weights0 : Cert.KernelIdeal.Value.weights0 x1 = Cert.ReferenceIdeal.Read.val_main_v29 (F := Ideal) x1 := rfl
theorem same_weights1 : Cert.KernelIdeal.Value.weights1 x1 = Cert.ReferenceIdeal.Read.val_main_v52 (F := Ideal) x1 := rfl
theorem same_weights2 : Cert.KernelIdeal.Value.weights2 x1 = Cert.ReferenceIdeal.Read.val_main_v75 (F := Ideal) x1 := rfl
theorem same_bias0 : Cert.KernelIdeal.Value.bias0 x2 = Cert.ReferenceIdeal.Read.val_main_v32 (F := Ideal) x2 := rfl
theorem same_bias1 : Cert.KernelIdeal.Value.bias1 x2 = Cert.ReferenceIdeal.Read.val_main_v55 (F := Ideal) x2 := rfl
theorem same_bias2 : Cert.KernelIdeal.Value.bias2 x2 = Cert.ReferenceIdeal.Read.val_main_v78 (F := Ideal) x2 := rfl

end Leaves

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments the kernel program's result buffer and the reference's both end at the
    three layers `Gcn.gcn` of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v62_0),
    Cert.KernelIdeal.GenRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.ReferenceIdeal.Layers.result_eq]
  refine Eq.trans ?_ (Cert.KernelIdeal.Value.result_eq m ρ c).symm
  rw [(hagree c).1, (hagree c).2.1, (hagree c).2.2.1, (hagree c).2.2.2.1, (hagree c).2.2.2.2,
    same_aggregate, same_srcNorm, same_dstNorm, same_weights0, same_weights1, same_weights2,
    same_bias0, same_bias1, same_bias2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
